-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S32000000 : Shape := ⟨1, ![32000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S32000000 : S_.BroadcastsInDim S32000000 (![] : Fin 0 → Fin S32000000.rank)
  reducesTo_S32000000_S_d0 : S32000000.ReducesTo [0] S_

variable [Facts]

def fn {F : FTy → Type} [FloatOps F] (main_arg0 : FVec F S500000 .f32) (main_arg1 : FVec F S32000000 .f32) (main_arg2 : IVec S32000000 32) (main_arg3 : IVec S32000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S32000000 .f32 := Host.absf main_arg1
  let main_cst_0 : FVec F S_ .f32 := constant S_ .f32 0x7F800000#32
  let main_v5 : FVec F S32000000 .f32 := broadcastInDim S32000000 ![] bcast_S_S32000000 main_cst_0
  let main_v6 : IVec S32000000 1 := cmpf .olt main_v4 main_v5
  let main_c_1 : IVec S_ 1 := constantI S_ 1 1#1
  let main_v7 : IVec S_ 1 := (fun x v => Host.reduce IntOp.andi x v reducesTo_S32000000_S_d0 h_S_) main_v6 main_c_1
  let main_v8 : IVec S_ 1 := andi main_v3 main_v7
  main_v8
-- ==== Kernel.lean ====
abbrev S500000 : Shape := ⟨1, ![500000]⟩
abbrev S32000000 : Shape := ⟨1, ![32000000]⟩
abbrev S_ : Shape := ⟨0, ![]⟩
abbrev S32000000x1 : Shape := ⟨2, ![32000000, 1]⟩
abbrev S640000 : Shape := ⟨1, ![640000]⟩

abbrev nBuf : Space → Nat
  | .hbm => 28
  | .vmem => 6
  | .smem => 0
  | _ => 0

abbrev bufTy : (tb : Table) → Fin (tcTables nBuf tb) → BufTy
  | .hbm, ⟨0, _⟩ => ⟨S500000, .f32⟩
  | .hbm, ⟨1, _⟩ => ⟨S32000000, .f32⟩
  | .hbm, ⟨2, _⟩ => ⟨S32000000, .i32⟩
  | .hbm, ⟨3, _⟩ => ⟨S32000000, .i32⟩
  | .hbm, ⟨4, _⟩ => ⟨S_, .i32⟩
  | .hbm, ⟨5, _⟩ => ⟨S32000000, .i32⟩
  | .hbm, ⟨6, _⟩ => ⟨S32000000, .i1⟩
  | .hbm, ⟨7, _⟩ => ⟨S_, .i32⟩
  | .hbm, ⟨8, _⟩ => ⟨S32000000, .i32⟩
  | .hbm, ⟨9, _⟩ => ⟨S32000000, .i32⟩
  | .hbm, ⟨10, _⟩ => ⟨S32000000, .i32⟩
  | .hbm, ⟨11, _⟩ => ⟨S32000000x1, .i32⟩
  | .hbm, ⟨12, _⟩ => ⟨S32000000, .f32⟩
  | .hbm, ⟨13, _⟩ => ⟨S_, .i32⟩
  | .hbm, ⟨14, _⟩ => ⟨S32000000, .i32⟩
  | .hbm, ⟨15, _⟩ => ⟨S32000000, .i1⟩
  | .hbm, ⟨16, _⟩ => ⟨S_, .i32⟩
  | .hbm, ⟨17, _⟩ => ⟨S32000000, .i32⟩
  | .hbm, ⟨18, _⟩ => ⟨S32000000, .i32⟩
  | .hbm, ⟨19, _⟩ => ⟨S32000000, .i32⟩
  | .hbm, ⟨20, _⟩ => ⟨S32000000x1, .i32⟩
  | .hbm, ⟨21, _⟩ => ⟨S32000000, .f32⟩
  | .hbm, ⟨22, _⟩ => ⟨S32000000, .f32⟩
  | .hbm, ⟨23, _⟩ => ⟨S32000000, .f32⟩
  | .hbm, ⟨24, _⟩ => ⟨S_, .f32⟩
  | .hbm, ⟨25, _⟩ => ⟨S500000, .f32⟩
  | .hbm, ⟨26, _⟩ => ⟨S32000000x1, .i32⟩
  | .hbm, ⟨27, _⟩ => ⟨S500000, .f32⟩
  | .local _ .vmem, ⟨0, _⟩ => ⟨S640000, .f32⟩
  | .local _ .vmem, ⟨1, _⟩ => ⟨S640000, .f32⟩
  | .local _ .vmem, ⟨2, _⟩ => ⟨S640000, .f32⟩
  | .local _ .vmem, ⟨3, _⟩ => ⟨S640000, .f32⟩
  | .local _ .vmem, ⟨4, _⟩ => ⟨S640000, .f32⟩
  | .local _ .vmem, ⟨5, _⟩ => ⟨S640000, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S640000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  inb_S640000_S640000_0 : ∀ a, (![0] : Fin 1 → Nat) a + S640000.size a ≤ S640000.size a
  h_S640000 : 0 < S640000.numel
  shapeCasts_S640000_S640000 : S640000.ShapeCasts S640000
  bcast_S_S500000 : S_.BroadcastsInDim S500000 (![] : Fin 0 → Fin S500000.rank)
  gather_S500000_S32000000x1_S32000000_n_0_n_n_0_1_1_wf : GatherDims.WF S500000 S32000000x1 S32000000 [] [0] [] [0] [] 1 ![1]
  scatter_S500000_S32000000x1_S32000000_n_0_0_1_wf : ScatterDims.WF S500000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640000.size a ≤ S32000000.size a
  hwx0_0 : ∀ i : grid0.Coords, EltTy.bits .f32 = 32 ∨ (Rect.block (s := S32000000) S640000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640000.size a ≤ S32000000.size a
  hwx0_1 : ∀ i : grid0.Coords, EltTy.bits .f32 = 32 ∨ (Rect.block (s := S32000000) S640000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640000.size a ≤ S32000000.size a
  hwx0_2 : ∀ i : grid0.Coords, EltTy.bits .f32 = 32 ∨ (Rect.block (s := S32000000) S640000.size (cc0_transform_2 i) (hinb0_2 i)).WholeWords (EltTy.packing .f32)

variable [Facts₀]

def gather_S500000_S32000000x1_S32000000_n_0_n_n_0_1_1 : GatherDims S500000 S32000000x1 S32000000 where
  offsetDims := []
  collapsedSliceDims := [0]
  operandBatchingDims := []
  startIndicesBatchingDims := []
  startIndexMap := [0]
  indexVectorDim := 1
  sliceSizes := ![1]
  wf := gather_S500000_S32000000x1_S32000000_n_0_n_n_0_1_1_wf
def scatter_S500000_S32000000x1_S32000000_n_0_0_1 : ScatterDims S500000 S32000000x1 S32000000 where
  updateWindowDims := []
  insertedWindowDims := [0]
  scatterDimsToOperandDims := [0]
  indexVectorDim := 1
  wf := scatter_S500000_S32000000x1_S32000000_n_0_0_1_wf

abbrev win0_0 : Pipeline.Window sig grid0 :=
  Pipeline.Window.ofSpec (Memref.whole main_v14) S640000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S640000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S32000000 : Shape := ⟨1, ![32000000]⟩
abbrev S_ : Shape := ⟨0, ![]⟩
abbrev S32000000x1 : Shape := ⟨2, ![32000000, 1]⟩

abbrev nBuf : Space → Nat
  | .hbm => 91
  | .vmem => 0
  | .smem => 0
  | _ => 0

abbrev bufTy : (tb : Table) → Fin (tcTables nBuf tb) → BufTy
  | .hbm, ⟨0, _⟩ => ⟨S500000, .f32⟩
  | .hbm, ⟨1, _⟩ => ⟨S32000000, .f32⟩
  | .hbm, ⟨2, _⟩ => ⟨S32000000, .i32⟩
  | .hbm, ⟨3, _⟩ => ⟨S32000000, .i32⟩
  | .hbm, ⟨4, _⟩ => ⟨S_, .i32⟩
  | .hbm, ⟨5, _⟩ => ⟨S32000000, .i32⟩
  | .hbm, ⟨6, _⟩ => ⟨S32000000, .i1⟩
  | .hbm, ⟨7, _⟩ => ⟨S_, .i32⟩
  | .hbm, ⟨8, _⟩ => ⟨S32000000, .i32⟩
  | .hbm, ⟨9, _⟩ => ⟨S32000000, .i32⟩
  | .hbm, ⟨10, _⟩ => ⟨S32000000, .i32⟩
  | .hbm, ⟨11, _⟩ => ⟨S32000000x1, .i32⟩
  | .hbm, ⟨12, _⟩ => ⟨S32000000, .f32⟩
  | .hbm, ⟨13, _⟩ => ⟨S_, .i32⟩
  | .hbm, ⟨14, _⟩ => ⟨S32000000, .i32⟩
  | .hbm, ⟨15, _⟩ => ⟨S32000000, .i1⟩
  | .hbm, ⟨16, _⟩ => ⟨S_, .i32⟩
  | .hbm, ⟨17, _⟩ => ⟨S32000000, .i32⟩
  | .hbm, ⟨18, _⟩ => ⟨S32000000, .i32⟩
  | .hbm, ⟨19, _⟩ => ⟨S32000000, .i32⟩
  | .hbm, ⟨20, _⟩ => ⟨S32000000x1, .i32⟩
  | .hbm, ⟨21, _⟩ => ⟨S32000000, .f32⟩
  | .hbm, ⟨22, _⟩ => ⟨S32000000, .f32⟩
  | .hbm, ⟨23, _⟩ => ⟨S_, .f32⟩
  | .hbm, ⟨24, _⟩ => ⟨S32000000, .f32⟩
  | .hbm, ⟨25, _⟩ => ⟨S32000000, .f32⟩
  | .hbm, ⟨26, _⟩ => ⟨S32000000, .f32⟩
  | .hbm, ⟨27, _⟩ => ⟨S_, .f32⟩
  | .hbm, ⟨28, _⟩ => ⟨S32000000, .f32⟩
  | .hbm, ⟨29, _⟩ => ⟨S32000000, .f32⟩
  | .hbm, ⟨30, _⟩ => ⟨S32000000, .f32⟩
  | .hbm, ⟨31, _⟩ => ⟨S32000000, .f32⟩
  | .hbm, ⟨32, _⟩ => ⟨S_, .f32⟩
  | .hbm, ⟨33, _⟩ => ⟨S32000000, .f32⟩
  | .hbm, ⟨34, _⟩ => ⟨S32000000, .f32⟩
  | .hbm, ⟨35, _⟩ => ⟨S_, .f32⟩
  | .hbm, ⟨36, _⟩ => ⟨S32000000, .f32⟩
  | .hbm, ⟨37, _⟩ => ⟨S32000000, .f32⟩
  | .hbm, ⟨38, _⟩ => ⟨S32000000, .f32⟩
  | .hbm, ⟨39, _⟩ => ⟨S_, .f32⟩
  | .hbm, ⟨40, _⟩ => ⟨S32000000, .f32⟩
  | .hbm, ⟨41, _⟩ => ⟨S32000000, .f32⟩
  | .hbm, ⟨42, _⟩ => ⟨S32000000, .f32⟩
  | .hbm, ⟨43, _⟩ => ⟨S_, .f32⟩
  | .hbm, ⟨44, _⟩ => ⟨S32000000, .f32⟩
  | .hbm, ⟨45, _⟩ => ⟨S32000000, .i1⟩
  | .hbm, ⟨46, _⟩ => ⟨S_, .f32⟩
  | .hbm, ⟨47, _⟩ => ⟨S_, .f32⟩
  | .hbm, ⟨48, _⟩ => ⟨S32000000, .f32⟩
  | .hbm, ⟨49, _⟩ => ⟨S32000000, .f32⟩
  | .hbm, ⟨50, _⟩ => ⟨S_, .f32⟩
  | .hbm, ⟨51, _⟩ => ⟨S32000000, .f32⟩
  | .hbm, ⟨52, _⟩ => ⟨S32000000, .f32⟩
  | .hbm, ⟨53, _⟩ => ⟨S_, .f32⟩
  | .hbm, ⟨54, _⟩ => ⟨S32000000, .f32⟩
  | .hbm, ⟨55, _⟩ => ⟨S32000000, .f32⟩
  | .hbm, ⟨56, _⟩ => ⟨S_, .f32⟩
  | .hbm, ⟨57, _⟩ => ⟨S32000000, .f32⟩
  | .hbm, ⟨58, _⟩ => ⟨S32000000, .f32⟩
  | .hbm, ⟨59, _⟩ => ⟨S32000000, .f32⟩
  | .hbm, ⟨60, _⟩ => ⟨S_, .f32⟩
  | .hbm, ⟨61, _⟩ => ⟨S32000000, .f32⟩
  | .hbm, ⟨62, _⟩ => ⟨S32000000, .f32⟩
  | .hbm, ⟨63, _⟩ => ⟨S_, .f32⟩
  | .hbm, ⟨64, _⟩ => ⟨S32000000, .f32⟩
  | .hbm, ⟨65, _⟩ => ⟨S32000000, .f32⟩
  | .hbm, ⟨66, _⟩ => ⟨S_, .f32⟩
  | .hbm, ⟨67, _⟩ => ⟨S32000000, .f32⟩
  | .hbm, ⟨68, _⟩ => ⟨S32000000, .f32⟩
  | .hbm, ⟨69, _⟩ => ⟨S32000000, .f32⟩
  | .hbm, ⟨70, _⟩ => ⟨S_, .f32⟩
  | .hbm, ⟨71, _⟩ => ⟨S32000000, .f32⟩
  | .hbm, ⟨72, _⟩ => ⟨S32000000, .f32⟩
  | .hbm, ⟨73, _⟩ => ⟨S_, .f32⟩
  | .hbm, ⟨74, _⟩ => ⟨S32000000, .f32⟩
  | .hbm, ⟨75, _⟩ => ⟨S32000000, .f32⟩
  | .hbm, ⟨76, _⟩ => ⟨S32000000, .f32⟩
  | .hbm, ⟨77, _⟩ => ⟨S32000000, .f32⟩
  | .hbm, ⟨78, _⟩ => ⟨S32000000, .f32⟩
  | .hbm, ⟨79, _⟩ => ⟨S32000000, .f32⟩
  | .hbm, ⟨80, _⟩ => ⟨S32000000, .f32⟩
  | .hbm, ⟨81, _⟩ => ⟨S_, .f32⟩
  | .hbm, ⟨82, _⟩ => ⟨S32000000, .f32⟩
  | .hbm, ⟨83, _⟩ => ⟨S32000000, .i1⟩
  | .hbm, ⟨84, _⟩ => ⟨S_, .f32⟩
  | .hbm, ⟨85, _⟩ => ⟨S32000000, .f32⟩
  | .hbm, ⟨86, _⟩ => ⟨S32000000, .f32⟩
  | .hbm, ⟨87, _⟩ => ⟨S_, .f32⟩
  | .hbm, ⟨88, _⟩ => ⟨S500000, .f32⟩
  | .hbm, ⟨89, _⟩ => ⟨S32000000x1, .i32⟩
  | .hbm, ⟨90, _⟩ => ⟨S500000, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩
abbrev main_cst_16 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_cst_19 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S500000 : S_.BroadcastsInDim S500000 (![] : Fin 0 → Fin S500000.rank)
  gather_S500000_S32000000x1_S32000000_n_0_n_n_0_1_1_wf : GatherDims.WF S500000 S32000000x1 S32000000 [] [0] [] [0] [] 1 ![1]
  scatter_S500000_S32000000x1_S32000000_n_0_0_1_wf : ScatterDims.WF S500000 S32000000x1 S32000000 [] [0] [0] 1

variable [Facts₀]

def gather_S500000_S32000000x1_S32000000_n_0_n_n_0_1_1 : GatherDims S500000 S32000000x1 S32000000 where
  offsetDims := []
  collapsedSliceDims := [0]
  operandBatchingDims := []
  startIndicesBatchingDims := []
  startIndexMap := [0]
  indexVectorDim := 1
  sliceSizes := ![1]
  wf := gather_S500000_S32000000x1_S32000000_n_0_n_n_0_1_1_wf
def scatter_S500000_S32000000x1_S32000000_n_0_0_1 : ScatterDims S500000 S32000000x1 S32000000 where
  updateWindowDims := []
  insertedWindowDims := [0]
  scatterDimsToOperandDims := [0]
  indexVectorDim := 1
  wf := scatter_S500000_S32000000x1_S32000000_n_0_0_1_wf

class Facts : Prop extends Facts₀ where

variable [Facts]
-- ==== Proof.ShieldedCoulomb.lean ====
/-
  The energy one atom pair contributes, as a function on the extended reals.

  A pair at distance `d` whose two charges have product `qq` contributes

      k · qq · ((1 − s(d)) · c(√(d² + 1)) + s(d) · c(d))      when d ≤ 10, and 0 beyond,

  where `c(r) = 1/r + r/100 − 0.2` is the damped and shifted Coulomb term of a distance, `√(d² + 1)` the
  shielded distance, and `s` the smooth switch `((6x − 15)·x + 10)·x³` of `x = d/4` below the short cutoff 4 and `1`
  from it on. Every constant is the extended real its 32-bit pattern denotes; no constant is evaluated here, the same
  pattern standing on both sides of every equation below.

  The one law the certificate needs is the last theorem: the factor `k` may be taken to the first charge and the
  product with the second formed afterwards, or to the product of the two charges, with the same result. This is
  associativity of the product of extended reals, which holds at the infinities too, so no finiteness is used.
-/
import Idealize.ShloMosaic.PureOps.Ideal

noncomputable section

namespace Cert.ShieldedCoulomb

open Idealize.ShloMosaic

/-- The extended real a 32-bit float pattern denotes. -/
abbrev lit (w : BitVec 32) : EReal := Ideal.ofBits .f32 w

/-- The distance in units of the short cutoff: `d / 4`. -/
def scaled (d : EReal) : EReal := Ideal.div d (lit 0x40800000#32)

/-- The switch: `((6x − 15)·x + 10)·x³` at `x = d/4` while `d < 4`, and `1` from the short cutoff on. -/
def switch (d : EReal) : EReal :=
  Scalar.select (Ideal.cmp .olt d (lit 0x40800000#32))
    (((lit 0x40C00000#32 * scaled d - lit 0x41700000#32) * scaled d + lit 0x41200000#32)
      * ((scaled d * scaled d) * scaled d))
    (lit 0x3F800000#32)

/-- The damped and shifted Coulomb term of a distance `r`: `1/r + r/100 − 0.2`. -/
def shifted (r : EReal) : EReal :=
  Ideal.div (lit 0x3F800000#32) r + Ideal.div r (lit 0x42C80000#32) - lit 0x3E4CCCCD#32

/-- The shielded distance `√(d² + 1)`. -/
def shielded (d : EReal) : EReal := Ideal.sqrt (d * d + lit 0x3F800000#32)

/-- The shielded term weighted by `1 − s` plus the ordinary term weighted by `s`. -/
def blend (d : EReal) : EReal :=
  (lit 0x3F800000#32 - switch d) * shifted (shielded d) + switch d * shifted d

/-- Beyond the long cutoff 10 a pair contributes nothing. -/
def cut (d e : EReal) : EReal :=
  Scalar.select (Ideal.cmp .ole d (lit 0x41200000#32)) e (lit 0x00000000#32)

/-- The pair's energy from the product of its charges and its distance. -/
def pairEnergy (qq d : EReal) : EReal := cut d ((lit 0x40E664F3#32 * qq) * blend d)

/-- The pair energies of a whole array of charge products and a whole array of distances, position by position
    (over any shape: a block of the edge axis, or the axis whole). -/
def pairEnergies {S : Shape} (qq d : S.Idx → EReal) : S.Idx → EReal := fun i => pairEnergy (qq i) (d i)

/-- The factor `k` taken to the first charge, the second multiplied in afterwards: the same energy as from the
    product of the charges, by associativity of the product of extended reals. -/
theorem pairEnergy_of_factors (qi qj d : EReal) :
    cut d (((lit 0x40E664F3#32 * qi) * qj) * blend d) = pairEnergy (qi * qj) d := by
  unfold pairEnergy
  rw [mul_assoc (lit 0x40E664F3#32) qi qj]

end Cert.ShieldedCoulomb

end
-- ==== Proof.KernelBlock.lean ====
/-
  What the kernel's body leaves in its output block: at each position of the block, the pair energy of the charge
  product and the distance the two input blocks hold at that position.

  The body loads both blocks whole, computes position by position, and stores the result over the whole output block,
  so the block after the body is the body's arithmetic of the two loaded blocks; and that arithmetic, read at one
  position, is the scalar formula of the specification (`pairEnergy`): the same operations in the same order, every
  constant the same pattern.
-/
import proofs.«413658_j36859409334420_2_alg».proof.Proof.Gen.KernelIdeal.Frame
import proofs.«413658_j36859409334420_2_alg».proof.Proof.ShieldedCoulomb
import Idealize.ShloMosaic.Lib.Pipeline.Value

noncomputable section

namespace Cert.KernelIdeal.PairValue

open Cert.KernelIdeal Cert.KernelIdeal.Gen Idealize.ShloMosaic Cert.ShieldedCoulomb

/-- The origin of a one-axis block. -/
theorem origin : (![0] : Fin 1 → Nat) = fun _ => 0 := funext fun a => by fin_cases a; rfl

/-- The output block after the body, from the block of charge products `qq` and the block of distances `d`. -/
theorem block_eq (qq d : Vec Ideal S640000 .f32) :
    out0_2 (F := Ideal) qq d = pairEnergies (S := S640000) qq d := by
  unfold out0_2
  rw [View.canon_unit_zero origin]
  simp only [View.ld_unit_zero (S := S640000) origin]
  funext y
  unfold k0_pay1 k0_pay2 k0_pay3 k0_pay4 k0_pay5
  simp only [shapeCast_self]
  unfold pairEnergies
  rfl

end Cert.KernelIdeal.PairValue

end
-- ==== Proof.RegionArray.lean ====
/-
  The array the region leaves: over the whole edge axis, at each edge the pair energy of the charge product and the
  distance the two input arrays hold at that edge.

  The edge axis of 32 000 000 entries is cut into 50 consecutive blocks of 640 000; at grid point `t` all three
  windows sit on block `t`, so position `y` of each block is edge `t · 640 000 + y` of its array. What point `t`
  writes back is therefore block `t` of the whole-array function; edge `i` lies in the block of point
  `i / 640 000`, so the blocks cover the axis and the array after the region is that function everywhere.
-/
import proofs.«413658_j36859409334420_2_alg».proof.Proof.KernelBlock

noncomputable section

namespace Cert.KernelIdeal.PairValue

open Cert.KernelIdeal Cert.KernelIdeal.Gen Idealize.ShloMosaic Idealize.ShloMosaic.TcCoe Idealize.SL.Sem
open Idealize.ShloMosaic.Pipeline (Dat)
open Cert.ShieldedCoulomb

variable (m : (ℓ : Loc nD τ sig) → Buf (Elt Ideal) ℓ)

/-- At every grid point the two input windows sit on the output window's block, and that block is one of the 50. -/
theorem same_block : ∀ t : Fin cfg0.N, win0_0.index t (0 : Fin 1) = win0_2.index t (0 : Fin 1)
    ∧ win0_1.index t (0 : Fin 1) = win0_2.index t (0 : Fin 1)
    ∧ win0_2.index t (0 : Fin 1) ≤ 49 :=
  (by decide +kernel : ∀ t : Fin grid0.N, _)

/-- Every one of the 50 blocks is some grid point's. -/
theorem every_block : ∀ q : Fin 50, ∃ t : Fin cfg0.N, win0_2.index t = ![q.val] :=
  (by decide +kernel : ∀ q : Fin 50, ∃ t : Fin grid0.N, win0_2.index t = ![q.val])

/-- What grid point `t` writes back is block `t` of the pair energies of the two arrays as the region finds them. -/
theorem written_back (c : Dev nD) (t : Fin cfg0.N) :
    (dats m 0 c).flushed 2 t
      = ((cfg0.win 2).blk t).view.read (Elt Ideal) (pairEnergies (S := S32000000) (V m c main_v14) (V m c main_arg1)) := by
  show (cfg0.win 2).cut (grid0.coords t) ((dats m 0 c).after 2 t) = _
  rw [after0_2, block_eq (iblk m c 0 t) (iblk m c 1 t)]
  obtain ⟨e0, e1, e2⟩ := same_block t
  funext j
  show pairEnergy (V m c main_v14 (((cfg0.win 0).blk t).view.emb j)) (V m c main_arg1 (((cfg0.win 1).blk t).view.emb j))
    = pairEnergy (V m c main_v14 (((cfg0.win 2).blk t).view.emb j)) (V m c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 1) * 640000 + 1 * (j 0).val = win0_2.index t (0 : Fin 1) * 640000 + 1 * (j 0).val; omega
  have h1 : ((cfg0.win 1).blk t).view.emb j = ((cfg0.win 2).blk t).view.emb j := by
    funext a; apply Fin.ext
    match a with
    | ⟨0, _⟩ => show win0_1.index t (0 : Fin 1) * 640000 + 1 * (j 0).val = win0_2.index t (0 : Fin 1) * 640000 + 1 * (j 0).val; omega
  rw [h0, h1]

/-- An edge is in point `t`'s block iff it lies in that block's range of the axis. -/
theorem mem_block (t : Fin cfg0.N) (i : S32000000.Idx) :
    i ∈ ((cfg0.win 2).blk t).view.set ↔ ∀ a : Fin 1, win0_2.index t a * S640000.size a ≤ (i a).val
      ∧ (i a).val < win0_2.index t a * S640000.size a + S640000.size a := by
  show i ∈ ((View.whole main_v15).slice (win0_2.rect t)).set ↔ _
  rw [View.set_slice_whole, Rect.mem_set_unit]
  exact Iff.rfl

/-- Every edge is written back by some grid point: edge `i` by the point on block `i / 640 000`. -/
theorem covered (i : S32000000.Idx) :
    ∃ t : Fin cfg0.N, (cfg0.win 2).flush t = true ∧ i ∈ ((cfg0.win 2).blk t).view.set := by
  have hi : (i 0).val < 32000000 := (i 0).isLt
  obtain ⟨t, ht⟩ := every_block ⟨(i 0).val / 640000, by omega⟩
  have q0 : win0_2.index t (0 : Fin 1) = (i 0).val / 640000 := congrFun ht 0
  refine ⟨t, flush0_2 t, ?_⟩
  rw [mem_block]
  intro a
  match a with
  | ⟨0, _⟩ =>
    show win0_2.index t (0 : Fin 1) * 640000 ≤ (i 0).val ∧ (i 0).val < win0_2.index t (0 : Fin 1) * 640000 + 640000
    omega

/-- The output array after the region: the pair energies of the charge products and the distances, edge by edge. -/
theorem region_array (c : Dev nD) :
    (dats m 0 c).arrAt 2 cfg0.N = pairEnergies (S := S32000000) (V m c main_v14) (V m c main_arg1) :=
  (dats m 0 c).arrAt_eq_of_cover 2 _ (fun t _ => written_back m c t) covered

end Cert.KernelIdeal.PairValue

end
-- ==== Proof.KernelResult.lean ====
/-
  What the kernel program returns: for each atom, the sum of the pair energies of the edges whose first index is
  that atom.

  Around its one region the program computes on the host. Before it: each edge's two charges are read from the
  charge table at the edge's two atom indices (a negative index counted from the table's end), and multiplied, which
  is the array of charge products the region reads. After it: the region's array of pair energies is summed into a
  zero array of one entry per atom, edge `e` into the entry its first index names. The region itself leaves the
  pair energies of the charge products and the distances (`region_array`). So the result is the per-atom sum of
  `pairEnergies (charge_i · charge_j) distances`.
-/
import proofs.«413658_j36859409334420_2_alg».proof.Proof.RegionArray
import Idealize.ShloMosaic.Lib.StableHlo.Run

noncomputable section

namespace Cert.KernelIdeal.PairValue

open Cert.KernelIdeal Cert.KernelIdeal.Gen Idealize.ShloMosaic Idealize.ShloMosaic.TcCoe Idealize.SL.Sem
open Idealize.ShloMosaic.Pipeline (Dat)
open Cert.ShieldedCoulomb

/-- Each edge's charge: the table read at the edge's atom index, a negative index counted from the table's end. -/
def chargeOf (q : FVec Ideal S500000 .f32) (idx : IVec S32000000 32) : FVec Ideal S32000000 .f32 :=
  Host.gather gather_S500000_S32000000x1_S32000000_n_0_n_n_0_1_1 q
    (broadcastInDim S32000000x1 ![0] bcast_S32000000_S32000000x1_0
      (select (cmpi .slt idx (broadcastInDim S32000000 ![] bcast_S_S32000000 (constantI S_ 32 0#32)))
        (addi idx (broadcastInDim S32000000 ![] bcast_S_S32000000 (constantI S_ 32 500000#32))) idx))

/-- The per-atom sums of an array over the edges: from zero, edge `e`'s entry added to the atom `idx e` names. -/
def atomSums (idx : IVec S32000000 32) (e : FVec Ideal S32000000 .f32) : FVec Ideal S500000 .f32 :=
  Host.scatterAdd scatter_S500000_S32000000x1_S32000000_n_0_0_1
    (broadcastInDim S500000 ![] bcast_S_S500000 (constant S_ .f32 0x00000000#32))
    (broadcastInDim S32000000x1 ![0] bcast_S32000000_S32000000x1_0 idx) e

/-- The program's result as one function of its four argument arrays. -/
def atomEnergies (q : FVec Ideal S500000 .f32) (d : FVec Ideal S32000000 .f32) (idxI idxJ : IVec S32000000 32) :
    FVec Ideal S500000 .f32 :=
  atomSums idxI (pairEnergies (S := S32000000) (mulf (chargeOf q idxI) (chargeOf q idxJ)) d)

variable (m : (ℓ : Loc nD τ sig) → Buf (Elt Ideal) ℓ) (ρ : Dev nD → PrngReg)

set_option maxRecDepth 8192 in
set_option maxHeartbeats 8000000 in
/-- The array of charge products the region finds: the host operations before it, read back. -/
theorem charge_products (c : Dev nD) :
    (V m c main_v14 : S32000000.Idx → EReal)
      = mulf (chargeOf (m ((c.tc : Thread nD τ).loc main_arg0)) (m ((c.tc : Thread nD τ).loc main_arg2)))
          (chargeOf (m ((c.tc : Thread nD τ).loc main_arg0)) (m ((c.tc : Thread nD τ).loc main_arg3))) := by
  show StableHlo.after hostOps0 (fun b => m (c, b)) (Proc.devRef .tc main_v14) = _
  after_results
  rfl

/-- What the host operations after the region leave in the result buffer. -/
theorem tail_result (c : Dev nD) :
    (Pipeline.afterTail₀ cfgs (dats m) 0 (V0 m) [hostOps1] c main_v18 : S500000.Idx → EReal)
      = atomEnergies (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v18) = _
  after_results
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  have e15 : Pipeline.withArrays (cfgs 0).spec c (V0 m c) (fun w => (dats m 0 c).arrAt w (cfgs 0).N) (Proc.devRef .tc main_v15)
      = (dats m 0 c).arrAt 2 cfg0.N :=
    Pipeline.withArrays_arr spec0 launch0.win.arr_inj c _ _ 2
  rw [e2, e15, region_array, charge_products, V_main_arg1]
  rfl

/-- The program's run with its result named: every weakly fair execution ends with the result buffer at
    `atomEnergies` of the argument arrays and the argument arrays unchanged. -/
theorem run : θ_run defs (onTc (τ := τ) (main (F := Ideal))) ⟨m, fun _ => 0, ρ⟩ (fun r => ∀ c : Dev nD,
      r.2.mem ((c.tc : Thread nD τ).loc main_v18)
        = atomEnergies (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v18 (Pipeline.mem_restRefs_of main_v18 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PairValue

end
-- ==== Proof.ReferenceResult.lean ====
/-
  What the reference program returns: for each atom, the sum of the pair energies of the edges whose first index is
  that atom.

  The reference computes everything on the host, array by array: each edge's two charges read from the charge table
  (a negative index counted from the table's end), the switch, the two damped and shifted Coulomb terms, their blend,
  the factor `k` multiplied to the first charge and then the second charge multiplied in, the cutoff, and the sum
  per atom. Read at one edge this is the specification's formula with `k` taken to the first charge; by
  associativity of the product (`pairEnergy_of_factors`) it is the pair energy of the product of the two charges.
-/
import proofs.«413658_j36859409334420_2_alg».proof.Proof.Gen.ReferenceIdeal.Run
import proofs.«413658_j36859409334420_2_alg».proof.Proof.ShieldedCoulomb

noncomputable section

namespace Cert.ReferenceIdeal.PairValue

open Cert.ReferenceIdeal Cert.ReferenceIdeal.Gen Cert.ReferenceIdeal.Value
open Idealize.ShloMosaic Idealize.ShloMosaic.TcCoe Idealize.SL.Sem
open Cert.ShieldedCoulomb

/-- Each edge's charge: the table read at the edge's atom index, a negative index counted from the table's end. -/
def chargeOf (q : FVec Ideal S500000 .f32) (idx : IVec S32000000 32) : FVec Ideal S32000000 .f32 :=
  Host.gather gather_S500000_S32000000x1_S32000000_n_0_n_n_0_1_1 q
    (broadcastInDim S32000000x1 ![0] bcast_S32000000_S32000000x1_0
      (select (cmpi .slt idx (broadcastInDim S32000000 ![] bcast_S_S32000000 (constantI S_ 32 0#32)))
        (addi idx (broadcastInDim S32000000 ![] bcast_S_S32000000 (constantI S_ 32 500000#32))) idx))

/-- The per-atom sums of an array over the edges: from zero, edge `e`'s entry added to the atom `idx e` names. -/
def atomSums (idx : IVec S32000000 32) (e : FVec Ideal S32000000 .f32) : FVec Ideal S500000 .f32 :=
  Host.scatterAdd scatter_S500000_S32000000x1_S32000000_n_0_0_1
    (broadcastInDim S500000 ![] bcast_S_S500000 (constant S_ .f32 0x00000000#32))
    (broadcastInDim S32000000x1 ![0] bcast_S32000000_S32000000x1_0 idx) e

/-- The program's result as one function of its four argument arrays. -/
def atomEnergies (q : FVec Ideal S500000 .f32) (d : FVec Ideal S32000000 .f32) (idxI idxJ : IVec S32000000 32) :
    FVec Ideal S500000 .f32 :=
  atomSums idxI (pairEnergies (S := S32000000) (mulf (chargeOf q idxI) (chargeOf q idxJ)) d)

variable (m : (ℓ : Loc nD τ sig) → Buf (Elt Ideal) ℓ)

set_option maxRecDepth 8192 in
/-- The reference run's result term is `atomEnergies` of the argument arrays: edge by edge, the factor `k` moved
    from the first charge to the product of the two. -/
theorem result_eq (c : Dev nD) :
    (res_out0 (F := Ideal) m c : S500000.Idx → EReal)
      = atomEnergies (m ((c.tc : Thread nD τ).loc main_arg0)) (m ((c.tc : Thread nD τ).loc main_arg1))
          (m ((c.tc : Thread nD τ).loc main_arg2)) (m ((c.tc : Thread nD τ).loc main_arg3)) := by
  unfold res_out0 res_main_v62 atomEnergies atomSums
  refine congrArg (Host.scatterAdd scatter_S500000_S32000000x1_S32000000_n_0_0_1 _ _) ?_
  funext i
  exact pairEnergy_of_factors
    (chargeOf (m ((c.tc : Thread nD τ).loc main_arg0)) (m ((c.tc : Thread nD τ).loc main_arg2)) i)
    (chargeOf (m ((c.tc : Thread nD τ).loc main_arg0)) (m ((c.tc : Thread nD τ).loc main_arg3)) i)
    (m ((c.tc : Thread nD τ).loc main_arg1) i)

end Cert.ReferenceIdeal.PairValue

end
-- ==== Proof.lean ====
/-
  Per-atom shielded Coulomb energies: the kernel program and its reference compute the same function.

  Both programs take a table of atomic charges, an array of pair distances and two arrays of atom indices, one pair of
  indices per edge. For each edge they read the two charges, form the pair energy

      k · q_i · q_j · ((1 − s(d)) · c(√(d² + 1)) + s(d) · c(d))     for d ≤ 10, and 0 beyond,

  and sum the edges' energies per first atom. The kernel program multiplies the two charges on the host, computes the
  pair energies in one region that walks the edge axis in 50 blocks, and sums per atom on the host again; the
  reference does every step on the host and multiplies `k` into the first charge before the second. Over the extended
  reals the two differ only in how the product `k · q_i · q_j` is grouped, and the product is associative, at the
  infinities too; nothing else of real arithmetic is used, and the precondition is never opened.

  The modules: Proof/ShieldedCoulomb.lean states the pair energy and the associativity law; Proof/KernelBlock.lean
  reads the region's body at one position of a block; Proof/RegionArray.lean assembles the blocks into the region's
  array; Proof/KernelResult.lean reads the host operations around the region and names the kernel program's result;
  Proof/ReferenceResult.lean reads the reference's result as the same function. The three frames are the generated
  ones (the reference's is its run with the result dropped), and the kernel's idealization rewrote nothing, so it
  preserves the kernel trivially.
-/
import proofs.«413658_j36859409334420_2_alg».proof.Defs
import proofs.«413658_j36859409334420_2_alg».proof.Proof.Gen.Kernel
import proofs.«413658_j36859409334420_2_alg».proof.Proof.Gen.Kernel.Frame
import proofs.«413658_j36859409334420_2_alg».proof.Proof.Gen.KernelIdeal
import proofs.«413658_j36859409334420_2_alg».proof.Proof.Gen.KernelIdeal.Frame
import proofs.«413658_j36859409334420_2_alg».proof.Proof.Gen.ReferenceIdeal
import proofs.«413658_j36859409334420_2_alg».proof.Proof.Gen.Pre_finite_inputs
import proofs.«413658_j36859409334420_2_alg».proof.Proof.Gen.ReferenceIdeal.Run
import proofs.«413658_j36859409334420_2_alg».proof.Proof.KernelResult
import proofs.«413658_j36859409334420_2_alg».proof.Proof.ReferenceResult
import Idealize.ShloMosaic.Adequacy
import Idealize.ShloMosaic.Init

noncomputable section

namespace Cert.Proof

open Idealize.ShloMosaic Idealize.SL.Sem

/-- The kernel program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, both programs end with the per-atom sums of the same pair energies: the kernel
    program's result is `atomEnergies` of its arguments, the reference's is the same function of its own, and the
    two functions are built from the same operations. -/
theorem algebraic : Cert.algebraic_KernelIdeal_ReferenceIdeal := by
  intro m ρ m' ρ' _ hagree
  refine ⟨_, Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.PairValue.result_eq m' c).trans ?_
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
